-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S256x40 : Shape := ⟨2, ![256, 40]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x40 : S_.BroadcastsInDim S256x40 (![] : Fin 0 → Fin S256x40.rank)
  reducesTo_S256x40_S_d0_1 : S256x40.ReducesTo [0, 1] S_

variable [Facts]

def fn {F : FTy → Type} [FloatOps F] (main_arg0 : FVec F S100000x128 .f32) (main_arg1 : FVec F S256x128 .f32) (main_arg2 : FVec F S256x40 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x40 .f32 := Host.absf main_arg2
  let main_cst_2 : FVec F S_ .f32 := constant S_ .f32 0x7F800000#32
  let main_v10 : FVec F S256x40 .f32 := broadcastInDim S256x40 ![] bcast_S_S256x40 main_cst_2
  let main_v11 : IVec S256x40 1 := cmpf .olt main_v9 main_v10
  let main_c_3 : IVec S_ 1 := constantI S_ 1 1#1
  let main_v12 : IVec S_ 1 := (fun x v => Host.reduce IntOp.andi x v reducesTo_S256x40_S_d0_1 h_S_) main_v11 main_c_3
  let main_v13 : IVec S_ 1 := andi main_v8 main_v12
  main_v13
-- ==== Kernel.lean ====
abbrev S100000x128 : Shape := ⟨2, ![100000, 128]⟩
abbrev S256x128 : Shape := ⟨2, ![256, 128]⟩
abbrev S256x40 : Shape := ⟨2, ![256, 40]⟩
abbrev S1600000 : Shape := ⟨1, ![1600000]⟩
abbrev S128x128 : Shape := ⟨2, ![128, 128]⟩
abbrev S128x40 : Shape := ⟨2, ![128, 40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2000x128 : Shape := ⟨2, ![2000, 128]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 55
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S256x40, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128x40, .f32⟩
  | .hbm, ⟨8, _⟩ => ⟨S128x40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S128x40, .f32⟩
  | .local _ .vmem, ⟨14, _⟩ => ⟨S2000x40, .f32⟩
  | .local _ .vmem, ⟨15, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S256x128_S128x128_0_0 : S256x128.Slices ![0, 0] S128x128
  slices_S256x128_S128x128_128_0 : S256x128.Slices ![128, 0] S128x128
  slices_S256x40_S128x40_0_0 : S256x40.Slices ![0, 0] S128x40
  slices_S256x40_S128x40_128_0 : S256x40.Slices ![128, 0] S128x40
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x40.size a ≤ S100000x40.size a
  hwx1_4 : ∀ i : grid1.Coords, EltTy.bits .f32 = 32 ∨ (Rect.block (s := S100000x40) S2000x40.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S2000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S256x40 : Shape := ⟨2, ![256, 40]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S100000x40 : Shape := ⟨2, ![100000, 40]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S256x40, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x256, .f32⟩
  | .hbm, ⟨61, _⟩ => ⟨S100000x40, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x40, .f32⟩
  | .hbm, ⟨69, _⟩ => ⟨S100000x40, .f32⟩
  | .hbm, ⟨70, _⟩ => ⟨S100000x40, .f32⟩
  | .hbm, ⟨71, _⟩ => ⟨S_, .f32⟩
  | .hbm, ⟨72, _⟩ => ⟨S100000, .f32⟩
  | .hbm, ⟨73, _⟩ => ⟨S100000x1, .f32⟩
  | .hbm, ⟨74, _⟩ => ⟨S100000x1, .f32⟩
  | .hbm, ⟨75, _⟩ => ⟨S100000x40, .f32⟩
  | .hbm, ⟨76, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_call1_cst_0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_cst_1 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  dot_S100000x256_S256x40_S100000x40_1_0_0_1_n_n_wf : DotDims.WF S100000x256 S256x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Spec.lean ====
/-
  The mathematics of one mean-aggregation layer, at the ideal values, over the literal shapes of this graph
  (100000 nodes, 128 features, 40 classes).

  A layer takes the node features `x` and the neighbour means `a`, both [100000, 128], and a weight matrix of 256 rows;
  its affine part at node `r`, output column `j` is
      ∑ₖ x[r,k]·W[k,j] + ∑ₖ a[r,k]·W[128+k,j]                                   (k < 128)
  which is also the entry of the single product [x | a]·W of the row-wise concatenation with the whole matrix: the
  sum over 256 columns splits at column 128, and extended-real addition is associative and commutative, so nothing
  is asked of the summands. The hidden layer clamps the affine part below at zero; the output layer subtracts from
  each row its maximum and then the logarithm of the sum of the exponentials of the shifted row.

  The neighbour mean is a neighbour SUM divided by a degree clamped below at one. Multiplying by the reciprocal of
  such a degree and dividing by it are one function on the extended reals, because the divisor is never zero:
  `s · (1 / d) = s · d⁻¹ = s / d` for every `d ≥ 1`, infinite `d` included.
-/
import Idealize.ShloMosaic.PureOps.Ideal.Laws
import Idealize.ShloMosaic.Lib.ValueIdx
import Idealize.ShloMosaic.Lib.Pipeline.Value
import proofs.«105283_j27324581937608_1_alg».proof.Proof.LibMatmulAt

noncomputable section

open scoped BigOperators

namespace Cert.Sage

open Idealize.ShloMosaic Idealize.ShloMosaic.ValueIdx

/-! ## Shapes -/

abbrev Nodes : Shape := ⟨2, ![100000, 128]⟩
abbrev Col : Shape := ⟨2, ![100000, 1]⟩
abbrev Vecn : Shape := ⟨1, ![100000]⟩
abbrev Cat : Shape := ⟨2, ![100000, 256]⟩
abbrev Scal : Shape := ⟨0, ![]⟩

/-! ## Constants -/

/-- The word of `1.0f` is the real one. -/
theorem one_f32 : Ideal.ofBits .f32 0x3F800000#32 = 1 := IdealRules.sign_bit.ideal_onePat .f32

/-- A scalar broadcast to any shape reads the scalar everywhere. -/
theorem scalar_bcast_apply {T : Shape} {α : Type} (h : Scal.BroadcastsInDim T ![]) (z : Scal.Idx → α) (i : T.Idx) :
    broadcastInDim T ![] h z i = z ix0 :=
  broadcastInDim_apply _ h z i ix0 (fun a => a.elim0)

/-! ## A per-node value broadcast along the feature axis -/

/-- A vector over the nodes, viewed as a column and broadcast along `d` features, reads at (r, k) the vector at r. -/
theorem col_bcast_apply {d : ℕ} {α : Type} (h1 : Vecn.BroadcastsInDim Col ![0])
    (h2 : Col.BroadcastsInDim ⟨2, ![100000, d]⟩ ![0, 1]) (z : Vecn.Idx → α) (r : Fin 100000) (k : Fin d) :
    broadcastInDim ⟨2, ![100000, d]⟩ ![0, 1] h2 (broadcastInDim Col ![0] h1 z) (ix2 r k) = z (ix1 r) := by
  refine (broadcastInDim_apply _ h2 _ (ix2 r k) (ix2 r ⟨0, Nat.one_pos⟩) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  exact broadcastInDim_apply _ h1 z (ix2 r ⟨0, Nat.one_pos⟩) (ix1 r) (fun a => match a with
    | ⟨0, _⟩ => by show r.val = if (100000 : Nat) = 1 then 0 else r.val; rw [if_neg (by decide)])

/-! ## The mean: a product with the reciprocal degree is the quotient by the degree -/

/-- Off zero, multiplying by the quotient `1 / d` is dividing by `d`. -/
theorem mul_one_div (x d : EReal) (hd : d ≠ 0) : x * Ideal.div 1 d = Ideal.div x d := by
  unfold Ideal.div
  rw [if_neg hd, if_neg hd, one_mul]

/-- A degree clamped below at one is not zero. -/
theorem max_one_ne_zero (g : EReal) : max g 1 ≠ 0 :=
  (lt_of_lt_of_le zero_lt_one (le_max_right g 1)).ne'

/-- THE MEAN, TWO WAYS: the neighbour sums `A` times the broadcast reciprocal of the clamped degree, and `A` divided by the
    broadcast clamped degree, are one array (`one` is the all-ones vector). -/
theorem mean_eq (h1 : Vecn.BroadcastsInDim Col ![0]) (h2 : Col.BroadcastsInDim Nodes ![0, 1])
    (A : FVec Ideal Nodes .f32) (deg one : FVec Ideal Vecn .f32) (hone : ∀ i, one i = (1 : EReal)) :
    mulf A (broadcastInDim Nodes ![0, 1] h2 (broadcastInDim Col ![0] h1 (Host.divf one (maximumf deg one))))
      = Host.divf A (broadcastInDim Nodes ![0, 1] h2 (broadcastInDim Col ![0] h1 (maximumf deg one))) := by
  funext i
  obtain ⟨r, k, rfl⟩ : ∃ (r : Fin 100000) (k : Fin 128), i = ix2 r k := ⟨i 0, i 1, eq_ix2 i⟩
  show A _ * broadcastInDim Nodes ![0, 1] h2 (broadcastInDim Col ![0] h1 (Host.divf one (maximumf deg one))) (ix2 r k)
    = Ideal.div (A _) (broadcastInDim Nodes ![0, 1] h2 (broadcastInDim Col ![0] h1 (maximumf deg one)) (ix2 r k))
  rw [col_bcast_apply h1 h2, col_bcast_apply h1 h2]
  show A _ * Ideal.div (one _) (max (deg _) (one _)) = Ideal.div (A _) (max (deg _) (one _))
  rw [hone]
  exact mul_one_div _ _ (max_one_ne_zero _)

/-! ## The host's matrix product at an entry -/

section Dot
variable {M K N : ℕ} (D : DotDims ⟨2, ![M, K]⟩ ⟨2, ![K, N]⟩ ⟨2, ![M, N]⟩)

/-- The host's product `[M, K] · [K, N]` at row `o`, column `t` is `∑ c, A[o, c] · B[c, t]`: the same re-indexing of the
    one-axis contraction as for the kernel's product into a zero accumulator. -/
theorem dot_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    Host.dotGeneral D prec A B (ix2 o t) = ∑ c : Fin K, A (ix2 o c) * B (ix2 c t) := by
  simp only [Host.dotGeneral]
  rw [Ideal.dotGeneral_apply,
    ← Equiv.sum_comp (contrEquiv1 D K (LibMatmulAt.contr_rank D hlc) (LibMatmulAt.contr_size D hlc)).symm]
  refine Finset.sum_congr rfl fun k _ => ?_
  have hk := contrEquiv1_symm_val D K (LibMatmulAt.contr_rank D hlc) (LibMatmulAt.contr_size D hlc) k
  have el : D.lhsIdx (ix2 o t) ((contrEquiv1 D K (LibMatmulAt.contr_rank D hlc) (LibMatmulAt.contr_size D hlc)).symm k) = ix2 o k :=
    funext fun a => Fin.ext (by
      match a with
      | ⟨0, _⟩ => exact LibMatmulAt.lhs_row D hlb hln _ _
      | ⟨1, _⟩ => exact (D.lhsIdx_val_of_single hlc _ _).trans hk)
  have er : D.rhsIdx (ix2 o t) ((contrEquiv1 D K (LibMatmulAt.contr_rank D hlc) (LibMatmulAt.contr_size D hlc)).symm k) = ix2 k t :=
    funext fun a => Fin.ext (by
      match a with
      | ⟨0, _⟩ => exact (D.rhsIdx_val_of_single hrc _ _).trans hk
      | ⟨1, _⟩ => exact LibMatmulAt.rhs_col D hrb hlb hln hrn _ _)
  rw [el, er]

end Dot

/-! ## Self features beside neighbour means: the concatenation and the two halves of the weights -/

section Halves
variable {α : Type}

/-- Column `k < 128` of `[x | a]` is column `k` of `x`. -/
theorem cat_left (hc : Shape.Concatenates [Nodes, Nodes] Cat 1) (x a : Nodes.Idx → α) (r : Fin 100000) (k : Fin 128) :
    concatenate Cat 1 [⟨Nodes, x⟩, ⟨Nodes, a⟩] hc (ix2 r (Fin.castAdd 128 k)) = x (ix2 r k) :=
  concatenate_pair_apply_left 1 x a hc _ rfl (ix2 r k) (fun b => match b with
    | ⟨0, _⟩ => rfl
    | ⟨1, _⟩ => rfl)

/-- Column `128 + k` of `[x | a]` is column `k` of `a`. -/
theorem cat_right (hc : Shape.Concatenates [Nodes, Nodes] Cat 1) (x a : Nodes.Idx → α) (r : Fin 100000) (k : Fin 128) :
    concatenate Cat 1 [⟨Nodes, x⟩, ⟨Nodes, a⟩] hc (ix2 r (Fin.natAdd 128 k)) = a (ix2 r k) :=
  concatenate_pair_apply_right 1 x a hc _ rfl rfl (ix2 r k) (fun b hb => match b with
    | ⟨0, _⟩ => rfl
    | ⟨1, _⟩ => absurd rfl hb) (by show k.val + 128 = 128 + k.val; omega)

/-- Row `k` of the top half of a 256-row matrix is its row `k`. -/
theorem top_apply {d : ℕ} (hs : (⟨2, ![256, d]⟩ : Shape).Slices ![0, 0] ⟨2, ![128, d]⟩) (W : (⟨2, ![256, d]⟩ : Shape).Idx → α)
    (k : Fin 128) (j : Fin d) :
    extractStridedSlice ⟨2, ![128, d]⟩ ![0, 0] W hs (ix2 k j) = W (ix2 (Fin.castAdd 128 k) j) :=
  extractStridedSlice_apply _ W hs _ _ (fun a => match a with
    | ⟨0, _⟩ => by show k.val = 0 + k.val; omega
    | ⟨1, _⟩ => by show j.val = 0 + j.val; omega)

/-- Row `k` of the bottom half of a 256-row matrix is its row `128 + k`. -/
theorem bot_apply {d : ℕ} (hs : (⟨2, ![256, d]⟩ : Shape).Slices ![128, 0] ⟨2, ![128, d]⟩) (W : (⟨2, ![256, d]⟩ : Shape).Idx → α)
    (k : Fin 128) (j : Fin d) :
    extractStridedSlice ⟨2, ![128, d]⟩ ![128, 0] W hs (ix2 k j) = W (ix2 (Fin.natAdd 128 k) j) :=
  extractStridedSlice_apply _ W hs _ _ (fun a => match a with
    | ⟨0, _⟩ => by show 128 + k.val = 128 + k.val; rfl
    | ⟨1, _⟩ => by show j.val = 0 + j.val; omega)

end Halves

/-! ## A layer's affine part -/

/-- The affine part of a layer at node `r`, output column `j`: the self features against one weight block plus the
    neighbour means against another. -/
def affAt {d : ℕ} (x a : FVec Ideal Nodes .f32) (wa wb : FVec Ideal ⟨2, ![128, d]⟩ .f32) (r : Fin 100000) (j : Fin d) : EReal :=
  (∑ k : Fin 128, x (ix2 r k) * wa (ix2 k j)) + ∑ k : Fin 128, a (ix2 r k) * wb (ix2 k j)

/-- THE SPLIT: the product of the concatenation `[x | a]` with a 256-row matrix, at an entry, is the affine part over the
    matrix's two halves. -/
theorem cat_dot_at {d : ℕ} (D : DotDims Cat ⟨2, ![256, d]⟩ ⟨2, ![100000, d]⟩) (hlc : D.lhsContracting = [1])
    (hrc : D.rhsContracting = [0]) (hlb : D.lhsBatch = []) (hrb : D.rhsBatch = []) (hln : D.lhsNonContracting = [0])
    (hrn : D.rhsNonContracting = [1]) (hc : Shape.Concatenates [Nodes, Nodes] Cat 1)
    (hs0 : (⟨2, ![256, d]⟩ : Shape).Slices ![0, 0] ⟨2, ![128, d]⟩) (hs1 : (⟨2, ![256, d]⟩ : Shape).Slices ![128, 0] ⟨2, ![128, d]⟩)
    (x a : FVec Ideal Nodes .f32) (W : FVec Ideal ⟨2, ![256, d]⟩ .f32) (r : Fin 100000) (j : Fin d) :
    Host.dotGeneral D none (concatenate Cat 1 [⟨Nodes, x⟩, ⟨Nodes, a⟩] hc) W (ix2 r j)
      = affAt x a (extractStridedSlice ⟨2, ![128, d]⟩ ![0, 0] W hs0) (extractStridedSlice ⟨2, ![128, d]⟩ ![128, 0] W hs1) r j := by
  rw [dot_at D hlc hrc hlb hrb hln hrn]
  unfold affAt
  rw [show (∑ c : Fin 256, concatenate Cat 1 [⟨Nodes, x⟩, ⟨Nodes, a⟩] hc (ix2 r c) * W (ix2 c j))
      = ∑ c : Fin (128 + 128), concatenate Cat 1 [⟨Nodes, x⟩, ⟨Nodes, a⟩] hc (ix2 r c) * W (ix2 c j) from rfl,
    Fin.sum_univ_add]
  congr 1
  · exact Finset.sum_congr rfl fun k _ => by rw [cat_left, top_apply]
  · exact Finset.sum_congr rfl fun k _ => by rw [cat_right, bot_apply]

/-! ## The two layers as whole arrays -/

/-- The hidden layer: the affine part clamped below at zero. -/
def hidden (x a : FVec Ideal Nodes .f32) (wa wb : FVec Ideal ⟨2, ![128, 128]⟩ .f32) : FVec Ideal Nodes .f32 :=
  fun i => max (affAt x a wa wb ⟨(i 0).val, idx2_lt0 i⟩ ⟨(i 1).val, idx2_lt1 i⟩) 0

theorem hidden_apply (x a : FVec Ideal Nodes .f32) (wa wb : FVec Ideal ⟨2, ![128, 128]⟩ .f32) (r : Fin 100000) (j : Fin 128) :
    hidden x a wa wb (ix2 r j) = max (affAt x a wa wb r j) 0 := rfl

/-- The largest of a row of 40 scores, from the word of `-∞`. -/
def rowMax (f : Fin 40 → EReal) : EReal := (Finset.univ : Finset (Fin 40)).fold max (Ideal.ofBits .f32 0xFF800000#32) f

/-- The log-softmax of a row of 40 scores at class `j`: the score less the row's maximum, less the logarithm of the sum
    of the exponentials of the scores so shifted. -/
def lsmRow (f : Fin 40 → EReal) (j : Fin 40) : EReal :=
  (f j - rowMax f) - Ideal.log (∑ j' : Fin 40, Ideal.exp (f j' - rowMax f))

/-- The output layer: the log-softmax of each node's row of affine scores. -/
def outLayer (x a : FVec Ideal Nodes .f32) (wa wb : FVec Ideal ⟨2, ![128, 40]⟩ .f32) : FVec Ideal ⟨2, ![100000, 40]⟩ .f32 :=
  fun i => lsmRow (fun j' => affAt x a wa wb ⟨(i 0).val, idx2_lt0 i⟩ j') ⟨(i 1).val, idx2_lt1 i⟩

theorem outLayer_apply (x a : FVec Ideal Nodes .f32) (wa wb : FVec Ideal ⟨2, ![128, 40]⟩ .f32) (r : Fin 100000) (j : Fin 40) :
    outLayer x a wa wb (ix2 r j) = lsmRow (fun j' => affAt x a wa wb r j') j := rfl

/-- The largest of a row is at least the word it starts from, so taking the maximum with that word again changes nothing. -/
theorem max_init_rowMax (f : Fin 40 → EReal) : max (Ideal.ofBits .f32 0xFF800000#32) (rowMax f) = rowMax f := by
  unfold rowMax
  exact max_eq_right ((_root_.Finset.le_fold_max (s := Finset.univ) (f := f) _).mpr (Or.inl le_rfl))

end Cert.Sage

end
-- ==== Proof.Agg.lean ====
/-
  The neighbour aggregation both programs run on the host, as functions of the node features and the edge lists.

  Every edge (src, dst) sends the features of node `src` to node `dst`; a node's aggregate is the sum of what it
  receives (a gather along the edges, then an accumulating scatter into zeros), and its degree is the number of edges
  that end at it (the same scatter of ones). The kernel's program multiplies the sums by the reciprocal of the degree
  clamped below at one; the reference divides by that clamped degree. Neither the gather nor the scatter is opened
  here: both programs apply the same two operations to the same operands, so they stay opaque, and only the last
  step differs — which `Sage.mean_eq` settles at the ideal values.
-/
import proofs.«105283_j27324581937608_1_alg».proof.Proof.Spec

noncomputable section

namespace Cert.Sage

open Idealize.ShloMosaic Idealize.ShloMosaic.ValueIdx

abbrev Edges : Shape := ⟨1, ![1600000]⟩
abbrev EdgeCol : Shape := ⟨2, ![1600000, 1]⟩
abbrev Msgs : Shape := ⟨2, ![1600000, 128]⟩

section Chain
variable {F : FTy → Type} [FloatOps F]
variable (gd : GatherDims Nodes EdgeCol Msgs) (sd : ScatterDims Nodes EdgeCol Msgs) (sd1 : ScatterDims Vecn EdgeCol Edges)
  (hbE : Scal.BroadcastsInDim Edges ![]) (hbV : Scal.BroadcastsInDim Vecn ![]) (hbN : Scal.BroadcastsInDim Nodes ![])
  (hE1 : Edges.BroadcastsInDim EdgeCol ![0]) (h1 : Vecn.BroadcastsInDim Col ![0]) (h2 : Col.BroadcastsInDim Nodes ![0, 1])

/-- The edges' sources as a column of indices, a negative id moved up by the number of nodes. -/
def srcCol (src : IVec Edges 32) : IVec EdgeCol 32 :=
  broadcastInDim EdgeCol ![0] hE1
    (select (cmpi .slt src (broadcastInDim Edges ![] hbE (constantI Scal 32 0#32)))
      (addi src (broadcastInDim Edges ![] hbE (constantI Scal 32 100000#32))) src)

/-- Each node's sum of the features its in-edges carry. -/
def nbrSum (x : FVec F Nodes .f32) (src dst : IVec Edges 32) : FVec F Nodes .f32 :=
  Host.scatterAdd sd (broadcastInDim Nodes ![] hbN (constant Scal .f32 0x00000000#32)) (broadcastInDim EdgeCol ![0] hE1 dst)
    (Host.gather gd x (srcCol hbE hE1 src))

/-- The all-ones vector over the nodes. -/
def onesV : FVec F Vecn .f32 := broadcastInDim Vecn ![] hbV (constant Scal .f32 0x3F800000#32)

/-- Each node's number of in-edges. -/
def degree (dst : IVec Edges 32) : FVec F Vecn .f32 :=
  Host.scatterAdd sd1 (broadcastInDim Vecn ![] hbV (constant Scal .f32 0x00000000#32)) (broadcastInDim EdgeCol ![0] hE1 dst)
    (broadcastInDim Edges ![] hbE (constant Scal .f32 0x3F800000#32))

/-- The neighbour mean as the kernel's program takes it: the sums times the reciprocal of the clamped degree. -/
def meanK (x : FVec F Nodes .f32) (src dst : IVec Edges 32) : FVec F Nodes .f32 :=
  mulf (nbrSum gd sd hbE hbN hE1 x src dst)
    (broadcastInDim Nodes ![0, 1] h2 (broadcastInDim Col ![0] h1
      (Host.divf (onesV hbV) (maximumf (degree sd1 hbE hbV hE1 dst) (onesV hbV)))))

/-- The neighbour mean as the reference takes it: the sums divided by the clamped degree. -/
def meanR (x : FVec F Nodes .f32) (src dst : IVec Edges 32) : FVec F Nodes .f32 :=
  Host.divf (nbrSum gd sd hbE hbN hE1 x src dst)
    (broadcastInDim Nodes ![0, 1] h2 (broadcastInDim Col ![0] h1 (maximumf (degree sd1 hbE hbV hE1 dst) (onesV hbV))))

end Chain

/-- At the ideal values the two means are one array. -/
theorem meanK_eq_meanR (gd : GatherDims Nodes EdgeCol Msgs) (sd : ScatterDims Nodes EdgeCol Msgs) (sd1 : ScatterDims Vecn EdgeCol Edges)
    (hbE : Scal.BroadcastsInDim Edges ![]) (hbV : Scal.BroadcastsInDim Vecn ![]) (hbN : Scal.BroadcastsInDim Nodes ![])
    (hE1 : Edges.BroadcastsInDim EdgeCol ![0]) (h1 : Vecn.BroadcastsInDim Col ![0]) (h2 : Col.BroadcastsInDim Nodes ![0, 1])
    (x : FVec Ideal Nodes .f32) (src dst : IVec Edges 32) :
    meanK gd sd sd1 hbE hbV hbN hE1 h1 h2 x src dst = meanR gd sd sd1 hbE hbV hbN hE1 h1 h2 x src dst :=
  mean_eq h1 h2 _ _ _ (fun i => (scalar_bcast_apply hbV _ i).trans one_f32)

end Cert.Sage

end
-- ==== Proof.HiddenRegion.lean ====
/-
  The hidden layer as the first kernel region leaves it.

  The region walks the 100000 nodes in 50 blocks of 2000 rows. At block `t` its body loads rows `2000·t … 2000·t + 1999`
  of the node features and of the neighbour means, and the two 128 × 128 weight blocks whole, and stores
  `max (xb · Wa + ab · Wb, 0)` — two matrix products into zero accumulators, added, clamped below at zero. Entry (p, q)
  of what block `t` writes back is therefore the hidden layer's value at node `2000·t + p`, column `q`: a row of a
  product depends on that row of the left operand only. The 50 blocks tile the array (node `r` is in block `r / 2000`),
  so after the region the array IS the hidden layer of the arrays the region found, whatever those are.
-/
import proofs.«105283_j27324581937608_1_alg».proof.Proof.Gen.KernelIdeal.Frame
import proofs.«105283_j27324581937608_1_alg».proof.Proof.Spec
import Idealize.ShloMosaic.Lib.Pipeline.Value

set_option maxRecDepth 16384

noncomputable section

open scoped BigOperators

namespace Cert.KernelIdeal.HiddenRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- What the body stores, at row `p`, column `q` of the block: the two contractions over the 128 features, added, clamped
    below at zero. The narrowing to bf16 before each product is the identity on extended reals. -/
theorem pay_at (xb ab : Vec Ideal S2000x128 .f32) (wa wb : Vec Ideal S128x128 .f32) (p : Fin 2000) (q : Fin 128) :
    k0_pay1 xb ab wa wb (ix2 p q)
      = max ((∑ k : Fin 128, xb (ix2 p k) * wa (ix2 k q)) + ∑ k : Fin 128, ab (ix2 p k) * wb (ix2 k q)) 0 := by
  unfold k0_pay1
  rw [maximumf_apply, addf_apply, broadcast_apply]
  refine congrArg₂ max (congrArg₂ (· + ·) ?_ ?_) Ideal.ofBits_zero_f32
  · refine (LibMatmulAt.matmul_zero_at dot_S2000x128_S128x128_S2000x128_1_0_0_1_n_n rfl rfl rfl rfl rfl rfl none _ _ p q).trans ?_
    refine Finset.sum_congr rfl fun k _ => ?_
    rw [truncf_apply, truncf_apply, shapeCast_self]
  · refine (LibMatmulAt.matmul_zero_at dot_S2000x128_S128x128_S2000x128_1_0_0_1_n_n rfl rfl rfl rfl rfl rfl none _ _ p q).trans ?_
    refine Finset.sum_congr rfl fun k _ => ?_
    rw [truncf_apply, truncf_apply, shapeCast_self, shapeCast_self]

/-! ## The blocks -/

theorem hz : (![0, 0] : Fin 2 → Nat) = fun _ => 0 := funext fun a => by fin_cases a <;> rfl

/-- The printed index maps over the 50 points: the three row-blocked windows sit at block `t`, the two weight windows at
    their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row `p` of block `t` is node `2000·t + p`. -/
def node (t : Fin cfg0.N) (p : Fin 2000) : Fin 100000 := ⟨2000 * t.val + p.val, by have := t.isLt; have : cfg0.N = 50 := rfl; omega⟩

/-- The node features' block at `t`, read off the array. -/
theorem blk_x (c : Dev nD) (t : Fin cfg0.N) (p : Fin 2000) (k : Fin 128) :
    iblk0 V c 0 t (ix2 p k) = V c main_arg0 (ix2 (node t p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The neighbour means' block at `t`, read off the array. -/
theorem blk_a (c : Dev nD) (t : Fin cfg0.N) (p : Fin 2000) (k : Fin 128) :
    iblk0 V c 1 t (ix2 p k) = V c main_v24 (ix2 (node t p) k) := by
  obtain ⟨-, -, e0, e1, -⟩ := idx_facts t
  show V c main_v24 (((cfg0.win 1).blk t).view.emb (ix2 p k)) = _
  refine congrArg (V c main_v24) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

/-- The first weight block is its whole array at every point. -/
theorem blk_wa (c : Dev nD) (t : Fin cfg0.N) (k : Fin 128) (q : Fin 128) :
    iblk0 V c 2 t (ix2 k q) = V c main_v0 (ix2 k q) := by
  obtain ⟨-, -, -, -, e0, e1, -⟩ := idx_facts t
  show V c main_v0 (((cfg0.win 2).blk t).view.emb (ix2 k q)) = _
  refine congrArg (V c main_v0) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second. -/
theorem blk_wb (c : Dev nD) (t : Fin cfg0.N) (k : Fin 128) (q : Fin 128) :
    iblk0 V c 3 t (ix2 k q) = V c main_v1 (ix2 k q) := by
  obtain ⟨-, -, -, -, -, -, e0, e1, -⟩ := idx_facts t
  show V c main_v1 (((cfg0.win 3).blk t).view.emb (ix2 k q)) = _
  refine congrArg (V c main_v1) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-! ## What a point writes back, and the array after the region -/

/-- The hidden layer of the arrays the region finds. -/
abbrev H (c : Dev nD) : FVec Ideal S100000x128 .f32 :=
  Sage.hidden (V c main_arg0) (V c main_v24) (V c main_v0) (V c main_v1)

/-- WHAT POINT `t` WRITES BACK is block `t` of the hidden layer. -/
theorem flushed_eq (c : Dev nD) (t : Fin cfg0.N) :
    (dat0 V c).flushed 4 t = ((cfg0.win 4).blk t).view.read (Elt Ideal) (H V c) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (ix2 p q)
    = H V c (((cfg0.win 4).blk t).view.emb (ix2 p q))
  have he : ((cfg0.win 4).blk t).view.emb (ix2 p q) = ix2 (node t p) q := by
    obtain ⟨-, -, -, -, -, -, -, -, e0, e1⟩ := idx_facts t
    funext a; apply Fin.ext
    match a with
    | ⟨0, _⟩ => show win0_4.index t (0 : Fin 2) * 2000 + 1 * p.val = 2000 * t.val + p.val; omega
    | ⟨1, _⟩ => show win0_4.index t (1 : Fin 2) * 128 + 1 * q.val = q.val; omega
  rw [he, pay_at]
  show _ = max (Sage.affAt (V c main_arg0) (V c main_v24) (V c main_v0) (V c main_v1) (node t p) q) 0
  unfold Sage.affAt
  simp only [blk_x, blk_a, blk_wa, blk_wb]

/-- An index of the array is in point `t`'s block iff each coordinate is in the block's range on its axis. -/
theorem mem_blk (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v25).slice (win0_4.rect t)).set ↔ _
  rw [View.set_slice_whole, Rect.mem_set_unit]
  exact Iff.rfl

/-- Every node's row is in the block of its quotient by 2000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  refine ⟨⟨(i 0).val / 2000, by show (i 0).val / 2000 < 50; omega⟩, flush0_4 _, ?_⟩
  rw [mem_blk]
  obtain ⟨-, -, -, -, -, -, -, -, e0, e1⟩ := idx_facts ⟨(i 0).val / 2000, by show (i 0).val / 2000 < 50; omega⟩
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 128 ≤ (i 1).val ∧ (i 1).val < win0_4.index _ (1 : Fin 2) * 128 + 128
    rw [e1]; omega

/-- THE ARRAY AFTER THE REGION is the hidden layer of the arrays the region found. -/
theorem final (c : Dev nD) : (dat0 V c).arrAt 4 cfg0.N = H V c :=
  (dat0 V c).arrAt_eq_of_cover 4 (H V c) (fun t _ => flushed_eq V c t) cover

end Cert.KernelIdeal.HiddenRegion

end
-- ==== Proof.Rows.lean ====
/-
  Rows: a per-node value spread along a row, a row's maximum and a row's sum as the host and the kernel each compute
  them, and the reference's two layers in the specification's form.

  Both programs shift each row of 40 scores by the row's maximum, taken as a fold of `max` from the word of `-∞` over
  the row, and subtract the logarithm of the sum of the exponentials of the shifted row. The host reduces the whole
  [100000, 40] array along its second axis; the kernel reduces a [2000, 40] block along its second axis. Either
  reduction at row `r` reads exactly the 40 entries of row `r`. The host takes the maximum of its row maximum with
  `-∞` once more, which changes nothing: the fold started from that word, so it is already at least that word.
-/
import proofs.«105283_j27324581937608_1_alg».proof.Proof.Spec

noncomputable section

open scoped BigOperators

namespace Cert.Sage

open Idealize.ShloMosaic Idealize.ShloMosaic.ValueIdx

abbrev Scores : Shape := ⟨2, ![100000, 40]⟩
abbrev Blk : Shape := ⟨2, ![2000, 40]⟩
abbrev BlkCol : Shape := ⟨2, ![2000, 1]⟩
abbrev BlkVec : Shape := ⟨1, ![2000]⟩

/-! ## A per-row value as a column, and a column spread along the row -/

section Columns
variable {α : Type}

/-- A vector over the nodes viewed as a column reads at (r, 0) the vector at r. -/
theorem to_col_apply (h1 : Vecn.BroadcastsInDim Col ![0]) (z : Vecn.Idx → α) (r : Fin 100000) :
    broadcastInDim Col ![0] h1 z (ix2 r ⟨0, Nat.one_pos⟩) = z (ix1 r) :=
  broadcastInDim_apply _ h1 z (ix2 r ⟨0, Nat.one_pos⟩) (ix1 r) (fun a => match a with
    | ⟨0, _⟩ => by show r.val = if (100000 : Nat) = 1 then 0 else r.val; rw [if_neg (by decide)])

/-- A column spread along `d` columns reads at (r, k) the column at (r, 0). -/
theorem along_apply {d : ℕ} (h2 : Col.BroadcastsInDim ⟨2, ![100000, d]⟩ ![0, 1]) (y : Col.Idx → α) (r : Fin 100000) (k : Fin d) :
    broadcastInDim ⟨2, ![100000, d]⟩ ![0, 1] h2 y (ix2 r k) = y (ix2 r ⟨0, Nat.one_pos⟩) :=
  broadcastInDim_apply _ h2 y (ix2 r k) (ix2 r ⟨0, Nat.one_pos⟩) (fun a => match a with
    | ⟨0, _⟩ => by show r.val = if (100000 : Nat) = 1 then 0 else r.val; rw [if_neg (by decide)]
    | ⟨1, _⟩ => by show 0 = if (1 : Nat) = 1 then 0 else k.val; rw [if_pos rfl])

/-- In a block: a vector over the 2000 rows recast as a column reads at (p, 0) the vector at p. -/
theorem blk_to_col_apply (h : BlkVec.ShapeCasts BlkCol) (v : BlkVec.Idx → α) (p : Fin 2000) :
    shapeCast BlkCol v h (ix2 p ⟨0, Nat.one_pos⟩) = v (ix1 p) :=
  shapeCast_apply v h (ix2 p ⟨0, Nat.one_pos⟩) (ix1 p) (by
    rw [Shape.rowMajor_val_one, Shape.rowMajor_val_two]; show p.val = p.val * 1 + 0; omega)

/-- In a block: a column spread along the 40 classes reads at (p, q) the column at (p, 0). -/
theorem blk_along_apply (h : BlkCol.Broadcasts Blk) (y : BlkCol.Idx → α) (p : Fin 2000) (q : Fin 40) :
    broadcastTo Blk y h (ix2 p q) = y (ix2 p ⟨0, Nat.one_pos⟩) :=
  broadcastTo_apply y h (ix2 p q) (ix2 p ⟨0, Nat.one_pos⟩) (fun a => match a with
    | ⟨0, _⟩ => by show p.val = if (2000 : Nat) = 1 then 0 else p.val; rw [if_neg (by decide)]
    | ⟨1, _⟩ => by show 0 = if (1 : Nat) = 1 then 0 else q.val; rw [if_pos rfl])

end Columns

/-! ## A reduction along the classes reads its row -/

/-- The index a reduction along the second axis reads for row `r`, class `j`, is (r, j). -/
theorem lift_row {n : ℕ} (hred : (⟨2, ![n, 40]⟩ : Shape).Reduces [1] ⟨1, ![n]⟩) (r : Fin n) (j : Fin 40) :
    hred.lift (ix1 r) j = ix2 r j :=
  funext fun a => Fin.ext (by match a with | ⟨0, _⟩ => rfl | ⟨1, _⟩ => rfl)

/-- The host's maximum along the classes, at row `r`: the fold of `max` over the row from the initial word. -/
theorem host_rowmax (hredTo : Scores.ReducesTo [1] Vecn) (hred : Scores.Reduces [1] Vecn) (hS : 0 < Scal.numel)
    (Z : FVec Ideal Scores .f32) (w : BitVec 32) (r : Fin 100000) :
    Host.reduce FloatOps.maximumf Z (constant Scal .f32 w) hredTo hS (ix1 r)
      = (Finset.univ : Finset (Fin 40)).fold max (Ideal.ofBits .f32 w) (fun j => Z (ix2 r j)) := by
  rw [Host.reduce_eq_fold_single FloatOps.maximumf Z _ hredTo hred hS]
  have e : (Z ∘ hred.lift (ix1 r)) = fun j : Fin 40 => Z (ix2 r j) := funext fun j => congrArg Z (lift_row hred r j)
  rw [e]
  rfl

/-- The host's sum along the classes from zero, at row `r`: the sum of the row. -/
theorem host_rowsum (hredTo : Scores.ReducesTo [1] Vecn) (hred : Scores.Reduces [1] Vecn) (hS : 0 < Scal.numel)
    (E : FVec Ideal Scores .f32) (r : Fin 100000) :
    Host.reduceAdd E (constant Scal .f32 0x00000000#32) hredTo hS (ix1 r) = ∑ j : Fin 40, E (ix2 r j) := by
  unfold Host.reduceAdd
  rw [Ideal.hostReduceAdd_def, Ideal.hostReduceAdd_single hredTo hred]
  show Ideal.ofBits .f32 0x00000000#32 + _ = _
  rw [Ideal.ofBits_zero_f32, zero_add]
  exact Finset.sum_congr rfl fun j _ => congrArg E (lift_row hred r j)

/-- The kernel's maximum along the classes of a block, at row `p`. -/
theorem ker_rowmax (hred : Blk.Reduces [1] BlkVec) (hφ : FKind.Formats .f32) (w : BitVec 32)
    (hacc : w = FKind.maximumf.neutral .f32 hφ) (z : FVec Ideal Blk .f32) (p : Fin 2000) :
    multiReduction .maximumf [1] BlkVec z w hred hφ hacc (ix1 p)
      = (Finset.univ : Finset (Fin 40)).fold max (Ideal.ofBits .f32 w) (fun j => z (ix2 p j)) := by
  rw [Ideal.multiReduction_maximumf_single]
  have e : (z ∘ hred.lift (ix1 p)) = fun j : Fin 40 => z (ix2 p j) := funext fun j => congrArg z (lift_row hred p j)
  rw [e]
  rfl

/-- The kernel's sum along the classes of a block, at row `p`. -/
theorem ker_rowsum (hred : Blk.Reduces [1] BlkVec) (hφ : FKind.Formats .f32) (w : BitVec 32)
    (hacc : w = FKind.add.neutral .f32 hφ) (z : FVec Ideal Blk .f32) (p : Fin 2000) :
    multiReduction .add [1] BlkVec z w hred hφ hacc (ix1 p) = ∑ j : Fin 40, z (ix2 p j) := by
  rw [Ideal.multiReduction_add_single]
  exact Finset.sum_congr rfl fun j _ => congrArg z (lift_row hred p j)

/-! ## The reference's hidden layer -/

/-- The reference's hidden layer — the product of `[x | a]` with the whole 256-row matrix, clamped below at zero — is
    the hidden layer over the matrix's two halves. -/
theorem ref_hidden (D : DotDims Cat ⟨2, ![256, 128]⟩ Nodes) (hlc : D.lhsContracting = [1]) (hrc : D.rhsContracting = [0])
    (hlb : D.lhsBatch = []) (hrb : D.rhsBatch = []) (hln : D.lhsNonContracting = [0]) (hrn : D.rhsNonContracting = [1])
    (hc : Shape.Concatenates [Nodes, Nodes] Cat 1) (hs0 : (⟨2, ![256, 128]⟩ : Shape).Slices ![0, 0] ⟨2, ![128, 128]⟩)
    (hs1 : (⟨2, ![256, 128]⟩ : Shape).Slices ![128, 0] ⟨2, ![128, 128]⟩) (hb0 : Scal.BroadcastsInDim Nodes ![])
    (x a : FVec Ideal Nodes .f32) (W : FVec Ideal ⟨2, ![256, 128]⟩ .f32) :
    maximumf (Host.dotGeneral D none (concatenate Cat 1 [⟨Nodes, x⟩, ⟨Nodes, a⟩] hc) W)
        (broadcastInDim Nodes ![] hb0 (constant Scal .f32 0x00000000#32))
      = hidden x a (extractStridedSlice ⟨2, ![128, 128]⟩ ![0, 0] W hs0) (extractStridedSlice ⟨2, ![128, 128]⟩ ![128, 0] W hs1) := by
  funext i
  obtain ⟨r, j, rfl⟩ : ∃ (r : Fin 100000) (j : Fin 128), i = ix2 r j := ⟨i 0, i 1, eq_ix2 i⟩
  rw [maximumf_apply, hidden_apply, cat_dot_at D hlc hrc hlb hrb hln hrn hc hs0 hs1, scalar_bcast_apply]
  exact congrArg (max _) Ideal.ofBits_zero_f32

/-! ## The reference's log-softmax -/

/-- The host's logarithm and exponential at an index are the extended reals'. -/
theorem host_log_apply {s : Shape} (x : FVec Ideal s .f32) (i : s.Idx) : Host.log x i = Ideal.log (x i) := rfl
theorem host_exp_apply {s : Shape} (x : FVec Ideal s .f32) (i : s.Idx) : Host.exp x i = Ideal.exp (x i) := rfl

section RefOut
variable (hredTo : Scores.ReducesTo [1] Vecn) (hS : 0 < Scal.numel) (hb : Scal.BroadcastsInDim Vecn ![])
  (h1 : Vecn.BroadcastsInDim Col ![0]) (h2 : Col.BroadcastsInDim Scores ![0, 1])

/-- The reference's shifted scores: each row less its maximum. -/
def refShift (Z : FVec Ideal Scores .f32) : FVec Ideal Scores .f32 :=
  subf Z (broadcastInDim Scores ![0, 1] h2 (broadcastInDim Col ![0] h1
    (maximumf (broadcastInDim Vecn ![] hb (constant Scal .f32 0xFF800000#32))
      (Host.reduce FloatOps.maximumf Z (constant Scal .f32 0xFF800000#32) hredTo hS))))

/-- The reference's log-softmax of a whole array of scores. -/
def refLsm (Z : FVec Ideal Scores .f32) : FVec Ideal Scores .f32 :=
  subf (refShift hredTo hS hb h1 h2 Z) (broadcastInDim Scores ![0, 1] h2 (Host.log (broadcastInDim Col ![0] h1
    (Host.reduceAdd (Host.exp (refShift hredTo hS hb h1 h2 Z)) (constant Scal .f32 0x00000000#32) hredTo hS))))

theorem refShift_apply (hred : Scores.Reduces [1] Vecn) (Z : FVec Ideal Scores .f32) (r : Fin 100000) (j : Fin 40) :
    refShift hredTo hS hb h1 h2 Z (ix2 r j) = Z (ix2 r j) - rowMax (fun j' => Z (ix2 r j')) := by
  unfold refShift
  rw [subf_apply, along_apply, to_col_apply, maximumf_apply, scalar_bcast_apply, host_rowmax hredTo hred hS]
  exact congrArg (Z (ix2 r j) - ·) (max_init_rowMax _)

theorem refLsm_apply (hred : Scores.Reduces [1] Vecn) (Z : FVec Ideal Scores .f32) (r : Fin 100000) (j : Fin 40) :
    refLsm hredTo hS hb h1 h2 Z (ix2 r j) = lsmRow (fun j' => Z (ix2 r j')) j := by
  unfold refLsm
  rw [subf_apply, along_apply, host_log_apply, to_col_apply, host_rowsum hredTo hred hS, refShift_apply hredTo hS hb h1 h2 hred]
  unfold lsmRow
  refine congrArg (fun s => _ - Ideal.log s) (Finset.sum_congr rfl fun j' _ => ?_)
  rw [host_exp_apply, refShift_apply hredTo hS hb h1 h2 hred]

end RefOut

/-- The reference's output layer — the log-softmax of the product of `[x | a]` with the whole 256-row matrix — is the
    output layer over the matrix's two halves. -/
theorem ref_out (D : DotDims Cat ⟨2, ![256, 40]⟩ Scores) (hlc : D.lhsContracting = [1]) (hrc : D.rhsContracting = [0])
    (hlb : D.lhsBatch = []) (hrb : D.rhsBatch = []) (hln : D.lhsNonContracting = [0]) (hrn : D.rhsNonContracting = [1])
    (hc : Shape.Concatenates [Nodes, Nodes] Cat 1) (hs0 : (⟨2, ![256, 40]⟩ : Shape).Slices ![0, 0] ⟨2, ![128, 40]⟩)
    (hs1 : (⟨2, ![256, 40]⟩ : Shape).Slices ![128, 0] ⟨2, ![128, 40]⟩)
    (hredTo : Scores.ReducesTo [1] Vecn) (hred : Scores.Reduces [1] Vecn) (hS : 0 < Scal.numel) (hb : Scal.BroadcastsInDim Vecn ![])
    (h1 : Vecn.BroadcastsInDim Col ![0]) (h2 : Col.BroadcastsInDim Scores ![0, 1])
    (x a : FVec Ideal Nodes .f32) (W : FVec Ideal ⟨2, ![256, 40]⟩ .f32) :
    refLsm hredTo hS hb h1 h2 (Host.dotGeneral D none (concatenate Cat 1 [⟨Nodes, x⟩, ⟨Nodes, a⟩] hc) W)
      = outLayer x a (extractStridedSlice ⟨2, ![128, 40]⟩ ![0, 0] W hs0) (extractStridedSlice ⟨2, ![128, 40]⟩ ![128, 0] W hs1) := by
  funext i
  obtain ⟨r, j, rfl⟩ : ∃ (r : Fin 100000) (j : Fin 40), i = ix2 r j := ⟨i 0, i 1, eq_ix2 i⟩
  rw [refLsm_apply hredTo hS hb h1 h2 hred, outLayer_apply]
  exact congrArg (fun f => lsmRow f j) (funext fun j' => cat_dot_at D hlc hrc hlb hrb hln hrn hc hs0 hs1 x a W r j')

end Cert.Sage

end
-- ==== Proof.OutRegion.lean ====
/-
  The output layer as the second kernel region leaves it.

  The region walks the 100000 nodes in 50 blocks of 2000 rows. At block `t` its body loads rows `2000·t … 2000·t + 1999`
  of the hidden features and of their neighbour means, and the two 128 × 40 weight blocks whole; it forms the block's
  scores `xb · Wa + ab · Wb`, subtracts from each row its maximum over the 40 classes, and subtracts the logarithm of the
  row's sum of exponentials. Every step after the products works row by row, and a row of a product depends on that
  row of the left operand only, so entry (p, q) of what block `t` writes back is the output layer's value at node
  `2000·t + p`, class `q`. The 50 blocks tile the array.
-/
import proofs.«105283_j27324581937608_1_alg».proof.Proof.Gen.KernelIdeal.Frame
import proofs.«105283_j27324581937608_1_alg».proof.Proof.Rows
import Idealize.ShloMosaic.Lib.Pipeline.Value

set_option maxRecDepth 16384

noncomputable section

open scoped BigOperators

namespace Cert.KernelIdeal.OutRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The block's scores: the two products into zero accumulators, added. -/
def acc (xb ab : Vec Ideal S2000x128 .f32) (wa wb : Vec Ideal S128x40 .f32) : FVec Ideal S2000x40 .f32 :=
  addf
    (matmul dot_S2000x128_S128x40_S2000x40_1_0_0_1_n_n none
      (truncf .bf16 (shapeCast S2000x128 xb shapeCasts_S2000x128_S2000x128) bitsLt_bf16_f32)
      (truncf .bf16 (shapeCast S128x40 wa shapeCasts_S128x40_S128x40) bitsLt_bf16_f32) (constant S2000x40 .f32 0x00000000#32))
    (matmul dot_S2000x128_S128x40_S2000x40_1_0_0_1_n_n none
      (truncf .bf16 (shapeCast S2000x128 ab shapeCasts_S2000x128_S2000x128) bitsLt_bf16_f32)
      (truncf .bf16 (shapeCast S128x40 wb shapeCasts_S128x40_S128x40) bitsLt_bf16_f32) (constant S2000x40 .f32 0x00000000#32))

/-- The scores at row `p`, class `q`: the two contractions over the 128 features. -/
theorem acc_at (xb ab : Vec Ideal S2000x128 .f32) (wa wb : Vec Ideal S128x40 .f32) (p : Fin 2000) (q : Fin 40) :
    acc xb ab wa wb (ix2 p q) = (∑ k : Fin 128, xb (ix2 p k) * wa (ix2 k q)) + ∑ k : Fin 128, ab (ix2 p k) * wb (ix2 k q) := by
  unfold acc
  rw [addf_apply]
  refine congrArg₂ (· + ·) ?_ ?_
  · refine (LibMatmulAt.matmul_zero_at dot_S2000x128_S128x40_S2000x40_1_0_0_1_n_n rfl rfl rfl rfl rfl rfl none _ _ p q).trans ?_
    refine Finset.sum_congr rfl fun k _ => ?_
    rw [truncf_apply, truncf_apply, shapeCast_self, shapeCast_self]
  · refine (LibMatmulAt.matmul_zero_at dot_S2000x128_S128x40_S2000x40_1_0_0_1_n_n rfl rfl rfl rfl rfl rfl none _ _ p q).trans ?_
    refine Finset.sum_congr rfl fun k _ => ?_
    rw [truncf_apply, truncf_apply, shapeCast_self, shapeCast_self]

/-- A block of scores less each row's maximum. -/
def shifted (A : FVec Ideal S2000x40 .f32) : FVec Ideal S2000x40 .f32 :=
  subf A (broadcastTo S2000x40 (shapeCast S2000x1
    (multiReduction .maximumf [1] S2000 A 0xFF800000#32 reduces_S2000x40_S2000 (.inl rfl) rfl) shapeCasts_S2000_S2000x1)
    broadcasts_S2000x1_S2000x40)

/-- The body's log-softmax of a block of scores. -/
def kerLsm (A : FVec Ideal S2000x40 .f32) : FVec Ideal S2000x40 .f32 :=
  subf (shifted A) (broadcastTo S2000x40 (log (shapeCast S2000x1
    (multiReduction .add [1] S2000 (exp (shifted A)) 0x00000000#32 reduces_S2000x40_S2000 (.inl rfl) rfl) shapeCasts_S2000_S2000x1))
    broadcasts_S2000x1_S2000x40)

/-- What the body stores is the log-softmax of the block's scores. -/
theorem pay_eq (xb ab : Vec Ideal S2000x128 .f32) (wa wb : Vec Ideal S128x40 .f32) :
    k1_pay1 xb ab wa wb = kerLsm (acc xb ab wa wb) := rfl

theorem ker_log_apply {s : Shape} (x : FVec Ideal s .f32) (i : s.Idx) : log x i = Ideal.log (x i) := rfl
theorem ker_exp_apply {s : Shape} (x : FVec Ideal s .f32) (i : s.Idx) : exp x i = Ideal.exp (x i) := rfl

theorem shifted_at (A : FVec Ideal S2000x40 .f32) (p : Fin 2000) (q : Fin 40) :
    shifted A (ix2 p q) = A (ix2 p q) - Sage.rowMax (fun j' => A (ix2 p j')) := by
  unfold shifted
  rw [subf_apply, Sage.blk_along_apply, Sage.blk_to_col_apply]
  exact congrArg (A (ix2 p q) - ·) (Sage.ker_rowmax reduces_S2000x40_S2000 _ _ _ A p)

/-- The body's log-softmax at row `p`, class `q`, is the log-softmax of row `p` of the scores. -/
theorem kerLsm_at (A : FVec Ideal S2000x40 .f32) (p : Fin 2000) (q : Fin 40) :
    kerLsm A (ix2 p q) = Sage.lsmRow (fun j' => A (ix2 p j')) q := by
  unfold kerLsm
  rw [subf_apply, Sage.blk_along_apply, ker_log_apply, Sage.blk_to_col_apply]
  refine (congrArg (fun s => shifted A (ix2 p q) - Ideal.log s)
    (Sage.ker_rowsum reduces_S2000x40_S2000 _ _ _ (exp (shifted A)) p)).trans ?_
  unfold Sage.lsmRow
  rw [shifted_at]
  refine congrArg (fun s => _ - Ideal.log s) (Finset.sum_congr rfl fun j' _ => ?_)
  rw [ker_exp_apply, shifted_at]

/-! ## The blocks -/

theorem hz : (![0, 0] : Fin 2 → Nat) = fun _ => 0 := funext fun a => by fin_cases a <;> rfl

/-- The printed index maps over the 50 points: the three row-blocked windows sit at block `t`, the two weight windows at
    their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `p` of block `t` is node `2000·t + p`. -/
def node (t : Fin cfg1.N) (p : Fin 2000) : Fin 100000 := ⟨2000 * t.val + p.val, by have := t.isLt; have : cfg1.N = 50 := rfl; omega⟩

/-- The hidden features' block at `t`, read off the array. -/
theorem blk_x (c : Dev nD) (t : Fin cfg1.N) (p : Fin 2000) (k : Fin 128) :
    iblk1 V c 0 t (ix2 p k) = V c main_v25 (ix2 (node t p) k) := by
  obtain ⟨e0, e1, -⟩ := idx_facts t
  show V c main_v25 (((cfg1.win 0).blk t).view.emb (ix2 p k)) = _
  refine congrArg (V c main_v25) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- Their neighbour means' block at `t`, read off the array. -/
theorem blk_a (c : Dev nD) (t : Fin cfg1.N) (p : Fin 2000) (k : Fin 128) :
    iblk1 V c 1 t (ix2 p k) = V c main_v38 (ix2 (node t p) k) := by
  obtain ⟨-, -, e0, e1, -⟩ := idx_facts t
  show V c main_v38 (((cfg1.win 1).blk t).view.emb (ix2 p k)) = _
  refine congrArg (V c main_v38) (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- The first weight block is its whole array at every point. -/
theorem blk_wa (c : Dev nD) (t : Fin cfg1.N) (k : Fin 128) (q : Fin 40) :
    iblk1 V c 2 t (ix2 k q) = V c main_v2 (ix2 k q) := by
  obtain ⟨-, -, -, -, e0, e1, -⟩ := idx_facts t
  show V c main_v2 (((cfg1.win 2).blk t).view.emb (ix2 k q)) = _
  refine congrArg (V c main_v2) (funext fun a => Fin.ext ?_)
  match a with
  | ⟨0, _⟩ => show win1_2.index t (0 : Fin 2) * 128 + 1 * k.val = k.val; omega
  | ⟨1, _⟩ => show win1_2.index t (1 : Fin 2) * 40 + 1 * q.val = q.val; omega

/-- So is the second. -/
theorem blk_wb (c : Dev nD) (t : Fin cfg1.N) (k : Fin 128) (q : Fin 40) :
    iblk1 V c 3 t (ix2 k q) = V c main_v3 (ix2 k q) := by
  obtain ⟨-, -, -, -, -, -, e0, e1, -⟩ := idx_facts t
  show V c main_v3 (((cfg1.win 3).blk t).view.emb (ix2 k q)) = _
  refine congrArg (V c main_v3) (funext fun a => Fin.ext ?_)
  match a with
  | ⟨0, _⟩ => show win1_3.index t (0 : Fin 2) * 128 + 1 * k.val = k.val; omega
  | ⟨1, _⟩ => show win1_3.index t (1 : Fin 2) * 40 + 1 * q.val = q.val; omega

/-! ## What a point writes back, and the array after the region -/

/-- The output layer of the arrays the region finds. -/
abbrev O (c : Dev nD) : FVec Ideal S100000x40 .f32 :=
  Sage.outLayer (V c main_v25) (V c main_v38) (V c main_v2) (V c main_v3)

/-- WHAT POINT `t` WRITES BACK is block `t` of the output layer. -/
theorem flushed_eq (c : Dev nD) (t : Fin cfg1.N) :
    (dat1 V c).flushed 4 t = ((cfg1.win 4).blk t).view.read (Elt Ideal) (O V c) := by
  show (cfg1.win 4).cut (grid1.coords t) ((dat1 V c).after 4 t) = _
  rw [after1_4]
  unfold out1_4
  rw [View.canon_unit_zero hz]
  simp only [View.ld_unit_zero (S := S2000x128) hz, View.ld_unit_zero (S := S128x40) hz]
  funext j
  obtain ⟨p, q, rfl⟩ : ∃ (p : Fin 2000) (q : Fin 40), j = ix2 p q := ⟨j 0, j 1, eq_ix2 j⟩
  show k1_pay1 (iblk1 V c 0 t) (iblk1 V c 1 t) (iblk1 V c 2 t) (iblk1 V c 3 t) (ix2 p q)
    = O V c (((cfg1.win 4).blk t).view.emb (ix2 p q))
  have he : ((cfg1.win 4).blk t).view.emb (ix2 p q) = ix2 (node t p) q := by
    obtain ⟨-, -, -, -, -, -, -, -, e0, e1⟩ := idx_facts t
    funext a; apply Fin.ext
    match a with
    | ⟨0, _⟩ => show win1_4.index t (0 : Fin 2) * 2000 + 1 * p.val = 2000 * t.val + p.val; omega
    | ⟨1, _⟩ => show win1_4.index t (1 : Fin 2) * 40 + 1 * q.val = q.val; omega
  rw [he, pay_eq, kerLsm_at]
  show _ = Sage.lsmRow (fun j' => Sage.affAt (V c main_v25) (V c main_v38) (V c main_v2) (V c main_v3) (node t p) j') q
  refine congrArg (fun f => Sage.lsmRow f q) (funext fun j' => ?_)
  rw [acc_at]
  unfold Sage.affAt
  simp only [blk_x, blk_a, blk_wa, blk_wb]

/-- An index of the array is in point `t`'s block iff each coordinate is in the block's range on its axis. -/
theorem mem_blk (t : Fin cfg1.N) (i : S100000x40.Idx) :
    i ∈ ((cfg1.win 4).blk t).view.set ↔ ∀ a : Fin 2, win1_4.index t a * S2000x40.size a ≤ (i a).val ∧ (i a).val < win1_4.index t a * S2000x40.size a + S2000x40.size a := by
  show i ∈ ((View.whole main_v39).slice (win1_4.rect t)).set ↔ _
  rw [View.set_slice_whole, Rect.mem_set_unit]
  exact Iff.rfl

/-- Every node's row is in the block of its quotient by 2000. -/
theorem cover (i : S100000x40.Idx) : ∃ t : Fin cfg1.N, (cfg1.win 4).flush t = true ∧ i ∈ ((cfg1.win 4).blk t).view.set := by
  have hi0 : (i 0).val < 100000 := (i 0).isLt
  have hi1 : (i 1).val < 40 := (i 1).isLt
  refine ⟨⟨(i 0).val / 2000, by show (i 0).val / 2000 < 50; omega⟩, flush1_4 _, ?_⟩
  rw [mem_blk]
  obtain ⟨-, -, -, -, -, -, -, -, e0, e1⟩ := idx_facts ⟨(i 0).val / 2000, by show (i 0).val / 2000 < 50; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 40 ≤ (i 1).val ∧ (i 1).val < win1_4.index _ (1 : Fin 2) * 40 + 40
    rw [e1]; omega

/-- THE ARRAY AFTER THE REGION is the output layer of the arrays the region found. -/
theorem final (c : Dev nD) : (dat1 V c).arrAt 4 cfg1.N = O V c :=
  (dat1 V c).arrAt_eq_of_cover 4 (O V c) (fun t _ => flushed_eq V c t) cover

end Cert.KernelIdeal.OutRegion

end
-- ==== Proof.KernelWhole.lean ====
/-
  The kernel program's result as one function of its arguments.

  @main runs a stretch of host operations, the first kernel region, a second stretch, the second region. The first
  stretch cuts each weight matrix into its top and bottom halves and forms the neighbour means of the node features;
  the first region leaves the hidden layer of those; the second stretch forms the neighbour means of the hidden layer
  (reading the region's result array, the edge lists and the reciprocal degrees the first stretch left); the second
  region leaves the output layer of the hidden layer and its means. Each array a region reads is followed back here
  to the launch memory: through a stretch by reading the operations' results, across a region by "a region changes
  its own result array only". The host side is read for any float values; only the regions' arithmetic is at the
  ideal ones.
-/
import proofs.«105283_j27324581937608_1_alg».proof.Proof.Gen.KernelIdeal.Frame
import proofs.«105283_j27324581937608_1_alg».proof.Proof.Agg
import proofs.«105283_j27324581937608_1_alg».proof.Proof.HiddenRegion
import proofs.«105283_j27324581937608_1_alg».proof.Proof.OutRegion
import proofs.«105283_j27324581937608_1_alg».proof.Proof.KernelRun
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-! ## The host side, for any float values -/

section AnyValues
variable {F : FTy → Type} [FloatOps F]
variable (m : (ℓ : Loc nD τ sig) → Buf (Elt F) ℓ) (ρ : Dev nD → PrngReg)

/-- The neighbour mean, the kernel program's way, over this program's records. -/
abbrev mean (x : FVec F S100000x128 .f32) (src dst : IVec S1600000 32) : FVec F S100000x128 .f32 :=
  Sage.meanK gather_S100000x128_S1600000x1_S1600000x128_1_0_n_n_0_1_1128 scatter_S100000x128_S1600000x1_S1600000x128_1_0_0_1
    scatter_S100000_S1600000x1_S1600000_n_0_0_1 bcast_S_S1600000 bcast_S_S100000 bcast_S_S100000x128 bcast_S1600000_S1600000x1_0
    bcast_S100000_S100000x1_0 bcast_S100000x1_S100000x128_0_1 x src dst

/-- The reciprocal of the degree clamped below at one. -/
abbrev recip (dst : IVec S1600000 32) : FVec F S100000 .f32 :=
  Host.divf (Sage.onesV bcast_S_S100000)
    (maximumf (Sage.degree scatter_S100000_S1600000x1_S1600000_n_0_0_1 bcast_S_S1600000 bcast_S_S100000 bcast_S1600000_S1600000x1_0 dst)
      (Sage.onesV bcast_S_S100000))

/-! ### After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
/-- The top half of the first weight matrix. -/
theorem W1_v0 (c : Dev nD) : W1 m ρ c (Proc.devRef .tc main_v0)
    = extractStridedSlice S128x128 ![0, 0] (m ((c : Thread nD τ).loc main_arg1)) slices_S256x128_S128x128_0_0 := by
  show StableHlo.after hostOps0 (W0 m ρ c) (Proc.devRef .tc main_v0) = _
  after_results <;> rfl
/-- Its bottom half. -/
theorem W1_v1 (c : Dev nD) : W1 m ρ c (Proc.devRef .tc main_v1)
    = extractStridedSlice S128x128 ![128, 0] (m ((c : Thread nD τ).loc main_arg1)) slices_S256x128_S128x128_128_0 := by
  show StableHlo.after hostOps0 (W0 m ρ c) (Proc.devRef .tc main_v1) = _
  after_results <;> rfl
/-- The top half of the second weight matrix. -/
theorem W1_v2 (c : Dev nD) : W1 m ρ c (Proc.devRef .tc main_v2)
    = extractStridedSlice S128x40 ![0, 0] (m ((c : Thread nD τ).loc main_arg2)) slices_S256x40_S128x40_0_0 := by
  show StableHlo.after hostOps0 (W0 m ρ c) (Proc.devRef .tc main_v2) = _
  after_results <;> rfl
/-- Its bottom half. -/
theorem W1_v3 (c : Dev nD) : W1 m ρ c (Proc.devRef .tc main_v3)
    = extractStridedSlice S128x40 ![128, 0] (m ((c : Thread nD τ).loc main_arg2)) slices_S256x40_S128x40_128_0 := by
  show StableHlo.after hostOps0 (W0 m ρ c) (Proc.devRef .tc main_v3) = _
  after_results <;> rfl
set_option maxHeartbeats 1000000 in
/-- The reciprocal clamped degrees. -/
theorem W1_v11 (c : Dev nD) : W1 m ρ c (Proc.devRef .tc main_v11) = recip (m ((c : Thread nD τ).loc main_arg4)) := by
  show StableHlo.after hostOps0 (W0 m ρ c) (Proc.devRef .tc main_v11) = _
  after_results <;> rfl
set_option maxHeartbeats 1000000 in
/-- The neighbour means of the node features. -/
theorem W1_v24 (c : Dev nD) : W1 m ρ c (Proc.devRef .tc main_v24)
    = mean (m ((c : Thread nD τ).loc main_arg0)) (m ((c : Thread nD τ).loc main_arg3)) (m ((c : Thread nD τ).loc main_arg4)) := by
  show StableHlo.after hostOps0 (W0 m ρ c) (Proc.devRef .tc main_v24) = _
  after_results <;> rfl

/-! ### Across the first region: it changes its own result array only -/

theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v2 (c : Dev nD) : W2 m ρ c (Proc.devRef .tc main_v2)
    = extractStridedSlice S128x40 ![0, 0] (m ((c : Thread nD τ).loc main_arg2)) slices_S256x40_S128x40_0_0 :=
  (W2_of_ne m ρ c main_v2 (by decide)).trans (W1_v2 m ρ c)
theorem W2_v3 (c : Dev nD) : W2 m ρ c (Proc.devRef .tc main_v3)
    = extractStridedSlice S128x40 ![128, 0] (m ((c : Thread nD τ).loc main_arg2)) slices_S256x40_S128x40_128_0 :=
  (W2_of_ne m ρ c main_v3 (by decide)).trans (W1_v3 m ρ c)
theorem W2_v11 (c : Dev nD) : W2 m ρ c (Proc.devRef .tc main_v11) = recip (m ((c : Thread nD τ).loc main_arg4)) :=
  (W2_of_ne m ρ c main_v11 (by decide)).trans (W1_v11 m ρ c)

/-! ### After the second stretch -/

/-- The second stretch leaves the first region's result array as it was. -/
theorem W3_v25 (c : Dev nD) : W3 m ρ c (Proc.devRef .tc main_v25) = W2 m ρ c (Proc.devRef .tc main_v25) := by
  show StableHlo.after hostOps1 (W2 m ρ c) (Proc.devRef .tc main_v25) = _
  after_results <;> rfl
theorem W3_v2 (c : Dev nD) : W3 m ρ c (Proc.devRef .tc main_v2)
    = extractStridedSlice S128x40 ![0, 0] (m ((c : Thread nD τ).loc main_arg2)) slices_S256x40_S128x40_0_0 := by
  show StableHlo.after hostOps1 (W2 m ρ c) (Proc.devRef .tc main_v2) = _
  after_results
  exact W2_v2 m ρ c
theorem W3_v3 (c : Dev nD) : W3 m ρ c (Proc.devRef .tc main_v3)
    = extractStridedSlice S128x40 ![128, 0] (m ((c : Thread nD τ).loc main_arg2)) slices_S256x40_S128x40_128_0 := by
  show StableHlo.after hostOps1 (W2 m ρ c) (Proc.devRef .tc main_v3) = _
  after_results
  exact W2_v3 m ρ c
set_option maxHeartbeats 1000000 in
/-- The neighbour means of what the first region left. -/
theorem W3_v38 (c : Dev nD) : W3 m ρ c (Proc.devRef .tc main_v38)
    = mean (W2 m ρ c (Proc.devRef .tc main_v25)) (m ((c : Thread nD τ).loc main_arg3)) (m ((c : Thread nD τ).loc main_arg4)) := by
  show StableHlo.after hostOps1 (W2 m ρ c) (Proc.devRef .tc main_v38) = _
  after_results
  rw [W2_arg3, W2_arg4, W2_v11]
  rfl

end AnyValues

/-! ## The regions' arithmetic, at the ideal values -/

variable (m : (ℓ : Loc nD τ sig) → Buf (Elt Ideal) ℓ) (ρ : Dev nD → PrngReg)

/-- The hidden layer. -/
abbrev hid (c : Dev nD) : FVec Ideal S100000x128 .f32 :=
  Sage.hidden (m ((c : Thread nD τ).loc main_arg0))
    (mean (m ((c : Thread nD τ).loc main_arg0)) (m ((c : Thread nD τ).loc main_arg3)) (m ((c : Thread nD τ).loc main_arg4)))
    (extractStridedSlice S128x128 ![0, 0] (m ((c : Thread nD τ).loc main_arg1)) slices_S256x128_S128x128_0_0)
    (extractStridedSlice S128x128 ![128, 0] (m ((c : Thread nD τ).loc main_arg1)) slices_S256x128_S128x128_128_0)

theorem W2_v25 (c : Dev nD) : W2 m ρ c (Proc.devRef .tc main_v25) = hid m c := by
  refine (W2_arr m ρ c 4).trans ((HiddenRegion.final (V1 m ρ) c).trans ?_)
  show Sage.hidden (W1 m ρ c (Proc.devRef .tc main_arg0)) (W1 m ρ c (Proc.devRef .tc main_v24)) (W1 m ρ c (Proc.devRef .tc main_v0))
    (W1 m ρ c (Proc.devRef .tc main_v1)) = _
  rw [W1_arg0, W1_v24, W1_v0, W1_v1]

/-- The kernel program's result: the output layer of the hidden layer and its neighbour means. -/
abbrev out (c : Dev nD) : FVec Ideal S100000x40 .f32 :=
  Sage.outLayer (hid m c) (mean (hid m c) (m ((c : Thread nD τ).loc main_arg3)) (m ((c : Thread nD τ).loc main_arg4)))
    (extractStridedSlice S128x40 ![0, 0] (m ((c : Thread nD τ).loc main_arg2)) slices_S256x40_S128x40_0_0)
    (extractStridedSlice S128x40 ![128, 0] (m ((c : Thread nD τ).loc main_arg2)) slices_S256x40_S128x40_128_0)

theorem W4_v39 (c : Dev nD) : W4 m ρ c (Proc.devRef .tc main_v39) = out m c := by
  refine (W4_arr m ρ c 4).trans ((OutRegion.final (V3 m ρ) c).trans ?_)
  show Sage.outLayer (W3 m ρ c (Proc.devRef .tc main_v25)) (W3 m ρ c (Proc.devRef .tc main_v38)) (W3 m ρ c (Proc.devRef .tc main_v2))
    (W3 m ρ c (Proc.devRef .tc main_v3)) = _
  rw [W3_v38, W3_v25, W3_v2, W3_v3, W2_v25]

/-- THE RUN, READ: every weakly fair execution of the kernel program terminates with its result array at `out` of the
    arguments, and the arguments unchanged. -/
theorem run : θ_run defs (onTc (τ := τ) (main (F := Ideal))) ⟨m, fun _ => 0, ρ⟩ (fun r => ∀ c : Dev nD,
      r.2.mem ((c.tc : Thread nD τ).loc main_v39) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W4_v39 m ρ c), (h c).2⟩) (GenRun.run_named m ρ)

end Cert.KernelIdeal.Whole

end
-- ==== Proof.RefWhole.lean ====
/-
  The reference program's result as one function of its arguments.

  The reference is a straight line of 72 host operations, read here in four stretches: the first layer up to its
  product `[h | mean h] · W1`; the clamp at zero; the second layer up to its product `[r | mean r] · W2` over the clamped
  first layer `r`; the log-softmax. Each stretch is read over ANY contents it may start from, so that the four compose:
  what a stretch reads is either an argument, which no operation writes, or the previous stretch's result. At the
  ideal values the two products over concatenations split into the layers' affine parts over the weights' halves.
-/
import proofs.«105283_j27324581937608_1_alg».proof.Proof.RefOps
import proofs.«105283_j27324581937608_1_alg».proof.Proof.Agg
import proofs.«105283_j27324581937608_1_alg».proof.Proof.Rows

set_option maxRecDepth 16384

noncomputable section

namespace Cert.ReferenceIdeal.Whole

open Cert.ReferenceIdeal Cert.ReferenceIdeal.Gen Cert.ReferenceIdeal.ValueP Idealize.ShloMosaic Idealize.ShloMosaic.TcCoe Idealize.SL.Sem
open Idealize.ShloMosaic.StableHlo

/-! ## The four stretches, for any float values and from any contents -/

section AnyValues
variable {F : FTy → Type} [FloatOps F]

/-- The neighbour mean, the reference's way, over this program's records. -/
abbrev mean (x : FVec F S100000x128 .f32) (src dst : IVec S1600000 32) : FVec F S100000x128 .f32 :=
  Sage.meanR gather_S100000x128_S1600000x1_S1600000x128_1_0_n_n_0_1_1128 scatter_S100000x128_S1600000x1_S1600000x128_1_0_0_1
    scatter_S100000_S1600000x1_S1600000_n_0_0_1 bcast_S_S1600000 bcast_S_S100000 bcast_S_S100000x128 bcast_S1600000_S1600000x1_0
    bcast_S100000_S100000x1_0 bcast_S100000x1_S100000x128_0_1 x src dst

/-- The product of `[x | a]` with a 256-row matrix of 128 columns. -/
abbrev catDot1 (x a : FVec F S100000x128 .f32) (W : FVec F S256x128 .f32) : FVec F S100000x128 .f32 :=
  Host.dotGeneral dot_S100000x256_S256x128_S100000x128_1_0_0_1_n_n none
    (concatenate S100000x256 1 [⟨S100000x128, x⟩, ⟨S100000x128, a⟩] concatenates_S100000x128_S100000x128_S100000x256_d1) W
/-- The product of `[x | a]` with a 256-row matrix of 40 columns. -/
abbrev catDot2 (x a : FVec F S100000x128 .f32) (W : FVec F S256x40 .f32) : FVec F S100000x40 .f32 :=
  Host.dotGeneral dot_S100000x256_S256x40_S100000x40_1_0_0_1_n_n none
    (concatenate S100000x256 1 [⟨S100000x128, x⟩, ⟨S100000x128, a⟩] concatenates_S100000x128_S100000x128_S100000x256_d1) W
/-- The clamp below at zero. -/
abbrev relu (y : FVec F S100000x128 .f32) : FVec F S100000x128 .f32 :=
  maximumf y (broadcastInDim S100000x128 ![] bcast_S_S100000x128 (constant S_ .f32 0x00000000#32))

/-- A whole array of scores less each row's maximum, as the reference's operations spell it. -/
abbrev shiftF (Z : FVec F S100000x40 .f32) : FVec F S100000x40 .f32 :=
  subf Z (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf Z (constant S_ .f32 0xFF800000#32) reducesTo_S100000x40_S100000_d1 h_S_))))
/-- The reference's log-softmax of a whole array of scores, as its operations spell it. -/
abbrev lsmF (Z : FVec F S100000x40 .f32) : FVec F S100000x40 .f32 :=
  subf (shiftF Z) (broadcastInDim S100000x40 ![0, 1] bcast_S100000x1_S100000x40_0_1 (Host.log (broadcastInDim S100000x1 ![0] bcast_S100000_S100000x1_0
    (Host.reduceAdd (Host.exp (shiftF Z)) (constant S_ .f32 0x00000000#32) reducesTo_S100000x40_S100000_d1 h_S_))))

/-- Contents carried to a typed reference's buffer and back are themselves. -/
theorem ofBuf_toBuf {T : BufTy} (x : TRef sig T) (v : T.Contents (Elt F)) : x.ofBuf (x.toBuf v) = v := by
  obtain ⟨r, h, _, _⟩ := x
  subst h
  rfl

variable (V : Valuation τ sig (Elt F))

set_option maxHeartbeats 2000000 in
/-- The first stretch leaves the first layer's product. -/
theorem A_v20 : after opsA V (Proc.devRef .tc main_v20)
    = catDot1 (V (Proc.devRef .tc main_arg0))
        (mean (V (Proc.devRef .tc main_arg0)) (V (Proc.devRef .tc main_arg3)) (V (Proc.devRef .tc main_arg4))) (V (Proc.devRef .tc main_arg1)) := by
  after_results <;> rfl
theorem A_arg0 : after opsA V (Proc.devRef .tc main_arg0) = V (Proc.devRef .tc main_arg0) := by after_results <;> rfl
theorem A_arg1 : after opsA V (Proc.devRef .tc main_arg1) = V (Proc.devRef .tc main_arg1) := by after_results <;> rfl
theorem A_arg2 : after opsA V (Proc.devRef .tc main_arg2) = V (Proc.devRef .tc main_arg2) := by after_results <;> rfl
theorem A_arg3 : after opsA V (Proc.devRef .tc main_arg3) = V (Proc.devRef .tc main_arg3) := by after_results <;> rfl
theorem A_arg4 : after opsA V (Proc.devRef .tc main_arg4) = V (Proc.devRef .tc main_arg4) := by after_results <;> rfl

/-- The second stretch clamps it. -/
theorem B_v21 : after opsB V (Proc.devRef .tc main_v21) = relu (V (Proc.devRef .tc main_v20)) := by
  after_results <;> (try simp only [ofBuf_toBuf]) <;> rfl
theorem B_arg0 : after opsB V (Proc.devRef .tc main_arg0) = V (Proc.devRef .tc main_arg0) := by after_results <;> rfl
theorem B_arg1 : after opsB V (Proc.devRef .tc main_arg1) = V (Proc.devRef .tc main_arg1) := by after_results <;> rfl
theorem B_arg2 : after opsB V (Proc.devRef .tc main_arg2) = V (Proc.devRef .tc main_arg2) := by after_results <;> rfl
theorem B_arg3 : after opsB V (Proc.devRef .tc main_arg3) = V (Proc.devRef .tc main_arg3) := by after_results <;> rfl
theorem B_arg4 : after opsB V (Proc.devRef .tc main_arg4) = V (Proc.devRef .tc main_arg4) := by after_results <;> rfl

set_option maxHeartbeats 2000000 in
/-- The third stretch leaves the second layer's product. -/
theorem C_v42 : after opsC V (Proc.devRef .tc main_v42)
    = catDot2 (V (Proc.devRef .tc main_v21))
        (mean (V (Proc.devRef .tc main_v21)) (V (Proc.devRef .tc main_arg3)) (V (Proc.devRef .tc main_arg4))) (V (Proc.devRef .tc main_arg2)) := by
  after_results <;> rfl

theorem C_arg0 : after opsC V (Proc.devRef .tc main_arg0) = V (Proc.devRef .tc main_arg0) := by after_results <;> rfl
theorem C_arg1 : after opsC V (Proc.devRef .tc main_arg1) = V (Proc.devRef .tc main_arg1) := by after_results <;> rfl
theorem C_arg2 : after opsC V (Proc.devRef .tc main_arg2) = V (Proc.devRef .tc main_arg2) := by after_results <;> rfl
theorem C_arg3 : after opsC V (Proc.devRef .tc main_arg3) = V (Proc.devRef .tc main_arg3) := by after_results <;> rfl
theorem C_arg4 : after opsC V (Proc.devRef .tc main_arg4) = V (Proc.devRef .tc main_arg4) := by after_results <;> rfl

set_option maxHeartbeats 2000000 in
/-- The fourth stretch takes its log-softmax. -/
theorem D_v43 : after opsD V (Proc.devRef .tc main_v43) = lsmF (V (Proc.devRef .tc main_v42)) := by
  after_results <;> (try simp only [ofBuf_toBuf]) <;> rfl

theorem D_arg0 : after opsD V (Proc.devRef .tc main_arg0) = V (Proc.devRef .tc main_arg0) := by after_results <;> rfl
theorem D_arg1 : after opsD V (Proc.devRef .tc main_arg1) = V (Proc.devRef .tc main_arg1) := by after_results <;> rfl
theorem D_arg2 : after opsD V (Proc.devRef .tc main_arg2) = V (Proc.devRef .tc main_arg2) := by after_results <;> rfl
theorem D_arg3 : after opsD V (Proc.devRef .tc main_arg3) = V (Proc.devRef .tc main_arg3) := by after_results <;> rfl
theorem D_arg4 : after opsD V (Proc.devRef .tc main_arg4) = V (Proc.devRef .tc main_arg4) := by after_results <;> rfl

/-- No operation writes an argument. -/
theorem after_arg0 : after ops V (Proc.devRef .tc main_arg0) = V (Proc.devRef .tc main_arg0) := by
  rw [ops_eq, after_append, after_append, after_append, D_arg0, C_arg0, B_arg0, A_arg0]
theorem after_arg1 : after ops V (Proc.devRef .tc main_arg1) = V (Proc.devRef .tc main_arg1) := by
  rw [ops_eq, after_append, after_append, after_append, D_arg1, C_arg1, B_arg1, A_arg1]
theorem after_arg2 : after ops V (Proc.devRef .tc main_arg2) = V (Proc.devRef .tc main_arg2) := by
  rw [ops_eq, after_append, after_append, after_append, D_arg2, C_arg2, B_arg2, A_arg2]
theorem after_arg3 : after ops V (Proc.devRef .tc main_arg3) = V (Proc.devRef .tc main_arg3) := by
  rw [ops_eq, after_append, after_append, after_append, D_arg3, C_arg3, B_arg3, A_arg3]
theorem after_arg4 : after ops V (Proc.devRef .tc main_arg4) = V (Proc.devRef .tc main_arg4) := by
  rw [ops_eq, after_append, after_append, after_append, D_arg4, C_arg4, B_arg4, A_arg4]

/-- THE WHOLE LINE: the result buffer after all 72 operations. -/
theorem after_v43 : after ops V (Proc.devRef .tc main_v43)
    = lsmF
        (catDot2
          (relu (catDot1 (V (Proc.devRef .tc main_arg0))
            (mean (V (Proc.devRef .tc main_arg0)) (V (Proc.devRef .tc main_arg3)) (V (Proc.devRef .tc main_arg4))) (V (Proc.devRef .tc main_arg1))))
          (mean (relu (catDot1 (V (Proc.devRef .tc main_arg0))
            (mean (V (Proc.devRef .tc main_arg0)) (V (Proc.devRef .tc main_arg3)) (V (Proc.devRef .tc main_arg4))) (V (Proc.devRef .tc main_arg1))))
            (V (Proc.devRef .tc main_arg3)) (V (Proc.devRef .tc main_arg4)))
          (V (Proc.devRef .tc main_arg2))) := by
  rw [ops_eq, after_append, after_append, after_append, D_v43, C_v42, B_v21, B_arg2, B_arg3, B_arg4, A_v20, A_arg2, A_arg3, A_arg4]

end AnyValues

end Cert.ReferenceIdeal.Whole

end
-- ==== Proof.RefValue.lean ====
/-
  The reference's result at the ideal values, and its run.

  The clamped first product `[h | mean h] · W1` is the hidden layer over the halves of `W1`; the log-softmax of the second
  product `[r | mean r] · W2` is the output layer over the halves of `W2`. With the four stretches composed, every weakly
  fair execution of the reference ends with its result at that function of the arguments and the arguments unchanged.
-/
import proofs.«105283_j27324581937608_1_alg».proof.Proof.RefWhole

set_option maxRecDepth 16384

noncomputable section

namespace Cert.ReferenceIdeal.Whole

open Cert.ReferenceIdeal Cert.ReferenceIdeal.Gen Cert.ReferenceIdeal.ValueP Idealize.ShloMosaic Idealize.ShloMosaic.TcCoe Idealize.SL.Sem
open Idealize.ShloMosaic.StableHlo

/-! ## At the ideal values: the layers over the weights' halves -/

theorem top128 : S256x128.Slices ![0, 0] (⟨2, ![128, 128]⟩ : Shape) := by decide
theorem bot128 : S256x128.Slices ![128, 0] (⟨2, ![128, 128]⟩ : Shape) := by decide
theorem top40 : S256x40.Slices ![0, 0] (⟨2, ![128, 40]⟩ : Shape) := by decide
theorem bot40 : S256x40.Slices ![128, 0] (⟨2, ![128, 40]⟩ : Shape) := by decide
theorem rowsReduce : S100000x40.Reduces [1] S100000 := by decide

/-- The clamped first product is the hidden layer over the first matrix's halves. -/
theorem relu_catDot1 (x a : FVec Ideal S100000x128 .f32) (W : FVec Ideal S256x128 .f32) :
    relu (catDot1 x a W)
      = Sage.hidden x a (extractStridedSlice ⟨2, ![128, 128]⟩ ![0, 0] W top128) (extractStridedSlice ⟨2, ![128, 128]⟩ ![128, 0] W bot128) :=
  Sage.ref_hidden dot_S100000x256_S256x128_S100000x128_1_0_0_1_n_n rfl rfl rfl rfl rfl rfl
    concatenates_S100000x128_S100000x128_S100000x256_d1 top128 bot128 bcast_S_S100000x128 x a W

/-- The log-softmax of the second product is the output layer over the second matrix's halves. -/
theorem lsm_catDot2 (x a : FVec Ideal S100000x128 .f32) (W : FVec Ideal S256x40 .f32) :
    lsmF (catDot2 x a W)
      = Sage.outLayer x a (extractStridedSlice ⟨2, ![128, 40]⟩ ![0, 0] W top40) (extractStridedSlice ⟨2, ![128, 40]⟩ ![128, 0] W bot40) :=
  Sage.ref_out dot_S100000x256_S256x40_S100000x40_1_0_0_1_n_n rfl rfl rfl rfl rfl rfl
    concatenates_S100000x128_S100000x128_S100000x256_d1 top40 bot40 reducesTo_S100000x40_S100000_d1 rowsReduce h_S_ bcast_S_S100000
    bcast_S100000_S100000x1_0 bcast_S100000x1_S100000x40_0_1 x a W

variable (m : (ℓ : Loc nD τ sig) → Buf (Elt Ideal) ℓ) (ρ : Dev nD → PrngReg)

/-- The hidden layer. -/
abbrev hid (c : Dev nD) : FVec Ideal S100000x128 .f32 :=
  Sage.hidden (m ((c : Thread nD τ).loc main_arg0))
    (mean (m ((c : Thread nD τ).loc main_arg0)) (m ((c : Thread nD τ).loc main_arg3)) (m ((c : Thread nD τ).loc main_arg4)))
    (extractStridedSlice ⟨2, ![128, 128]⟩ ![0, 0] (m ((c : Thread nD τ).loc main_arg1)) top128)
    (extractStridedSlice ⟨2, ![128, 128]⟩ ![128, 0] (m ((c : Thread nD τ).loc main_arg1)) bot128)

/-- The reference's result: the output layer of the hidden layer and its neighbour means. -/
abbrev out (c : Dev nD) : FVec Ideal S100000x40 .f32 :=
  Sage.outLayer (hid m c) (mean (hid m c) (m ((c : Thread nD τ).loc main_arg3)) (m ((c : Thread nD τ).loc main_arg4)))
    (extractStridedSlice ⟨2, ![128, 40]⟩ ![0, 0] (m ((c : Thread nD τ).loc main_arg2)) top40)
    (extractStridedSlice ⟨2, ![128, 40]⟩ ![128, 0] (m ((c : Thread nD τ).loc main_arg2)) bot40)

/-- The result buffer after the whole line, from the launch memory. -/
theorem value (c : Dev nD) : after ops (launchContents m c) (Proc.devRef .tc main_v43) = out m c := by
  rw [after_v43, relu_catDot1, lsm_catDot2]

set_option maxRecDepth 8192 in
set_option maxHeartbeats 4000000 in
/-- THE RUN, READ: every weakly fair execution of the reference terminates with its result at `out` of the arguments, and the
    arguments unchanged. -/
theorem run : θ_run defs (onTc (τ := τ) (main (F := Ideal))) ⟨m, fun _ => 0, ρ⟩ fun r => ∀ c : Dev nD,
      r.2.mem ((c.tc : Thread nD τ).loc main_v43) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v43).trans (value m c),
      (h c main_arg0).trans (after_arg0 _), (h c main_arg1).trans (after_arg1 _), (h c main_arg2).trans (after_arg2 _),
      (h c main_arg3).trans (after_arg3 _), (h c main_arg4).trans (after_arg4 _)⟩)
    (run_seq scopedRefs_eq scopedSems_eq defs main (fun _ => ops) main_eq (fun _ => ops_sub) m ρ)

end Cert.ReferenceIdeal.Whole

end
-- ==== Proof.lean ====
/-
  A two-layer mean-aggregation graph network (GraphSAGE) over 100000 nodes with 128 features, 1.6 million edges and
  40 classes: a kernel program against its plain reference, equal at the ideal values.

  Both programs aggregate on the host: each node sums the features its in-edges carry (a gather along the edges and an
  accumulating scatter) and takes a mean by the in-degree clamped below at one. The kernel's program multiplies the sums
  by the reciprocal of that degree and then runs, per layer, a kernel region over blocks of 2000 nodes that forms
  `x · W_top + mean · W_bottom` as two products of 128 columns each; the reference divides the sums by the degree,
  concatenates `[x | mean]` and multiplies by the whole 256-row matrix. The first layer clamps at zero, the second takes
  a log-softmax over the 40 classes (row maximum, shift, exponentials, sum, logarithm), the same formula on both sides.

  Why the two agree on the extended reals:
  * `s · (1 / d) = s / d` for every `d ≥ 1`: off zero the quotient IS the product with the inverse, and a degree clamped
    below at one is never zero — no finiteness of `s` or `d` is used;
  * `∑_{k<256} [x | a][r,k] · W[k,j] = ∑_{k<128} x[r,k] · W[k,j] + ∑_{k<128} a[r,k] · W[128+k,j]`: a sum split at column 128;
  * the narrowing of the products' operands to bf16 is the identity;
  * a row's maximum and sum read the same 40 entries whether the reduction runs over a block of 2000 rows or the whole
    array; the reference's extra `max` of the row maximum with `-∞` changes nothing;
  * the gather and the scatter are the same operations on the same operands in both programs, and are never opened.
  The precondition (finite inputs) is not used: the equality holds for all extended-real inputs.

  The kernel program's regions are read through their frames (each region's result array is one whole-array function of
  the arrays the region finds), its host stretches by reading the operations' results; the reference, a straight line
  of host operations, is read in four stretches.
-/
import proofs.«105283_j27324581937608_1_alg».proof.Defs
import proofs.«105283_j27324581937608_1_alg».proof.Proof.Gen.Kernel
import proofs.«105283_j27324581937608_1_alg».proof.Proof.Gen.Kernel.Frame
import proofs.«105283_j27324581937608_1_alg».proof.Proof.Gen.KernelIdeal
import proofs.«105283_j27324581937608_1_alg».proof.Proof.Gen.KernelIdeal.Frame
import proofs.«105283_j27324581937608_1_alg».proof.Proof.Gen.ReferenceIdeal
import proofs.«105283_j27324581937608_1_alg».proof.Proof.Gen.Pre_finite_inputs
import proofs.«105283_j27324581937608_1_alg».proof.Proof.KernelWhole
import proofs.«105283_j27324581937608_1_alg».proof.Proof.RefValue

noncomputable section

namespace Cert.Proof

open Idealize.ShloMosaic Idealize.ShloMosaic.TcCoe Idealize.SL.Sem

/-! ## The two results are one function of the arguments -/

/-- The neighbour mean by the reciprocal degree (the kernel program's) is the neighbour mean by the quotient (the
    reference's): the two programs' dimension records are the same records. -/
theorem mean_eq (x : FVec Ideal Sage.Nodes .f32) (src dst : IVec Sage.Edges 32) :
    Cert.KernelIdeal.Whole.mean x src dst = Cert.ReferenceIdeal.Whole.mean x src dst :=
  (Sage.meanK_eq_meanR _ _ _ _ _ _ _ _ _ x src dst).trans rfl

/-- From memories that agree on the five arguments the reference's result is the kernel program's. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Whole.out m' c = Cert.KernelIdeal.Whole.out m c := by
  unfold Cert.ReferenceIdeal.Whole.out Cert.ReferenceIdeal.Whole.hid
  rw [h0, h1, h2, h3, h4]
  unfold Cert.KernelIdeal.Whole.out Cert.KernelIdeal.Whole.hid
  rw [mean_eq, mean_eq]

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Whole.run m ρ)

/-- Both programs run, and end with one result: the kernel program's at `out` of its arguments, the reference's at its own
    `out`, which is the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩) (Cert.ReferenceIdeal.Whole.run m' ρ')
  obtain ⟨h0, h1, h2, h3, h4⟩ := hagree c
  exact out_eq m m' c h0 h1 h2 h3 h4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
